-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S262144 : Shape := ⟨1, ![262144]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S16777216 .f32) (main_arg1 : FVec F S262144 .f32) (main_arg2 : IVec S16777216 32) (main_arg3 : IVec S16777216 32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S262144 .f32 := Host.absf main_arg1
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  main_v8
-- ==== Kernel.lean ====
abbrev S16777216 : Shape := ⟨1, ![16777216]⟩
abbrev S262144 : Shape := ⟨1, ![262144]⟩
abbrev S_ : Shape := ⟨0, ![]⟩
abbrev S16777216x1 : Shape := ⟨2, ![16777216, 1]⟩
abbrev S131072x128 : Shape := ⟨2, ![131072, 128]⟩
abbrev S2048x128 : Shape := ⟨2, ![2048, 128]⟩

abbrev nBuf : Space → Nat
  | .hbm => 31
  | .vmem => 8
  | .smem => 0
  | _ => 0

abbrev bufTy : (tb : Table) → Fin (tcTables nBuf tb) → BufTy
  | .hbm, ⟨0, _⟩ => ⟨S16777216, .f32⟩
  | .hbm, ⟨1, _⟩ => ⟨S262144, .f32⟩
  | .hbm, ⟨2, _⟩ => ⟨S16777216, .i32⟩
  | .hbm, ⟨3, _⟩ => ⟨S16777216, .i32⟩
  | .hbm, ⟨4, _⟩ => ⟨S_, .i32⟩
  | .hbm, ⟨5, _⟩ => ⟨S16777216, .i32⟩
  | .hbm, ⟨6, _⟩ => ⟨S16777216, .i1⟩
  | .hbm, ⟨7, _⟩ => ⟨S_, .i32⟩
  | .hbm, ⟨8, _⟩ => ⟨S16777216, .i32⟩
  | .hbm, ⟨9, _⟩ => ⟨S16777216, .i32⟩
  | .hbm, ⟨10, _⟩ => ⟨S16777216, .i32⟩
  | .hbm, ⟨11, _⟩ => ⟨S16777216x1, .i32⟩
  | .hbm, ⟨12, _⟩ => ⟨S16777216, .f32⟩
  | .hbm, ⟨13, _⟩ => ⟨S_, .i32⟩
  | .hbm, ⟨14, _⟩ => ⟨S16777216, .i32⟩
  | .hbm, ⟨15, _⟩ => ⟨S16777216, .i1⟩
  | .hbm, ⟨16, _⟩ => ⟨S_, .i32⟩
  | .hbm, ⟨17, _⟩ => ⟨S16777216, .i32⟩
  | .hbm, ⟨18, _⟩ => ⟨S16777216, .i32⟩
  | .hbm, ⟨19, _⟩ => ⟨S16777216, .i32⟩
  | .hbm, ⟨20, _⟩ => ⟨S16777216x1, .i32⟩
  | .hbm, ⟨21, _⟩ => ⟨S16777216, .f32⟩
  | .hbm, ⟨22, _⟩ => ⟨S131072x128, .f32⟩
  | .hbm, ⟨23, _⟩ => ⟨S131072x128, .f32⟩
  | .hbm, ⟨24, _⟩ => ⟨S131072x128, .f32⟩
  | .hbm, ⟨25, _⟩ => ⟨S131072x128, .f32⟩
  | .hbm, ⟨26, _⟩ => ⟨S16777216, .f32⟩
  | .hbm, ⟨27, _⟩ => ⟨S_, .f32⟩
  | .hbm, ⟨28, _⟩ => ⟨S262144, .f32⟩
  | .hbm, ⟨29, _⟩ => ⟨S16777216x1, .i32⟩
  | .hbm, ⟨30, _⟩ => ⟨S262144, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S131072x128 : S16777216.ShapeCasts S131072x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S131072x128_S16777216 : S131072x128.ShapeCasts S16777216
  bcast_S_S262144 : S_.BroadcastsInDim S262144 (![] : Fin 0 → Fin S262144.rank)
  gather_S262144_S16777216x1_S16777216_n_0_n_n_0_1_1_wf : GatherDims.WF S262144 S16777216x1 S16777216 [] [0] [] [0] [] 1 ![1]
  scatter_S262144_S16777216x1_S16777216_n_0_0_1_wf : ScatterDims.WF S262144 S16777216x1 S16777216 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S131072x128.size a
  hwx0_2 : ∀ i : grid0.Coords, EltTy.bits .f32 = 32 ∨ (Rect.block (s := S131072x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S131072x128.size a
  hwx0_3 : ∀ i : grid0.Coords, EltTy.bits .f32 = 32 ∨ (Rect.block (s := S131072x128) S2048x128.size (cc0_transform_3 i) (hinb0_3 i)).WholeWords (EltTy.packing .f32)

variable [Facts₀]

def gather_S262144_S16777216x1_S16777216_n_0_n_n_0_1_1 : GatherDims S262144 S16777216x1 S16777216 where
  offsetDims := []
  collapsedSliceDims := [0]
  operandBatchingDims := []
  startIndicesBatchingDims := []
  startIndexMap := [0]
  indexVectorDim := 1
  sliceSizes := ![1]
  wf := gather_S262144_S16777216x1_S16777216_n_0_n_n_0_1_1_wf
def scatter_S262144_S16777216x1_S16777216_n_0_0_1 : ScatterDims S262144 S16777216x1 S16777216 where
  updateWindowDims := []
  insertedWindowDims := [0]
  scatterDimsToOperandDims := [0]
  indexVectorDim := 1
  wf := scatter_S262144_S16777216x1_S16777216_n_0_0_1_wf

abbrev win0_0 : Pipeline.Window sig grid0 :=
  Pipeline.Window.ofSpec (Memref.whole main_v14) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16777216 : Shape := ⟨1, ![16777216]⟩
abbrev S262144 : Shape := ⟨1, ![262144]⟩
abbrev S_ : Shape := ⟨0, ![]⟩
abbrev S16777216x1 : Shape := ⟨2, ![16777216, 1]⟩

abbrev nBuf : Space → Nat
  | .hbm => 95
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S262144, .f32⟩
  | .hbm, ⟨2, _⟩ => ⟨S16777216, .i32⟩
  | .hbm, ⟨3, _⟩ => ⟨S16777216, .i32⟩
  | .hbm, ⟨4, _⟩ => ⟨S_, .i32⟩
  | .hbm, ⟨5, _⟩ => ⟨S16777216, .i32⟩
  | .hbm, ⟨6, _⟩ => ⟨S16777216, .i1⟩
  | .hbm, ⟨7, _⟩ => ⟨S_, .i32⟩
  | .hbm, ⟨8, _⟩ => ⟨S16777216, .i32⟩
  | .hbm, ⟨9, _⟩ => ⟨S16777216, .i32⟩
  | .hbm, ⟨10, _⟩ => ⟨S16777216, .i32⟩
  | .hbm, ⟨11, _⟩ => ⟨S16777216x1, .i32⟩
  | .hbm, ⟨12, _⟩ => ⟨S16777216, .f32⟩
  | .hbm, ⟨13, _⟩ => ⟨S_, .i32⟩
  | .hbm, ⟨14, _⟩ => ⟨S16777216, .i32⟩
  | .hbm, ⟨15, _⟩ => ⟨S16777216, .i1⟩
  | .hbm, ⟨16, _⟩ => ⟨S_, .i32⟩
  | .hbm, ⟨17, _⟩ => ⟨S16777216, .i32⟩
  | .hbm, ⟨18, _⟩ => ⟨S16777216, .i32⟩
  | .hbm, ⟨19, _⟩ => ⟨S16777216, .i32⟩
  | .hbm, ⟨20, _⟩ => ⟨S16777216x1, .i32⟩
  | .hbm, ⟨21, _⟩ => ⟨S16777216, .f32⟩
  | .hbm, ⟨22, _⟩ => ⟨S16777216, .f32⟩
  | .hbm, ⟨23, _⟩ => ⟨S_, .f32⟩
  | .hbm, ⟨24, _⟩ => ⟨S16777216, .f32⟩
  | .hbm, ⟨25, _⟩ => ⟨S16777216, .f32⟩
  | .hbm, ⟨26, _⟩ => ⟨S16777216, .f32⟩
  | .hbm, ⟨27, _⟩ => ⟨S_, .f32⟩
  | .hbm, ⟨28, _⟩ => ⟨S16777216, .f32⟩
  | .hbm, ⟨29, _⟩ => ⟨S16777216, .f32⟩
  | .hbm, ⟨30, _⟩ => ⟨S_, .f32⟩
  | .hbm, ⟨31, _⟩ => ⟨S16777216, .f32⟩
  | .hbm, ⟨32, _⟩ => ⟨S16777216, .i1⟩
  | .hbm, ⟨33, _⟩ => ⟨S16777216, .f32⟩
  | .hbm, ⟨34, _⟩ => ⟨S16777216, .f32⟩
  | .hbm, ⟨35, _⟩ => ⟨S_, .f32⟩
  | .hbm, ⟨36, _⟩ => ⟨S16777216, .f32⟩
  | .hbm, ⟨37, _⟩ => ⟨S16777216, .f32⟩
  | .hbm, ⟨38, _⟩ => ⟨S_, .f32⟩
  | .hbm, ⟨39, _⟩ => ⟨S16777216, .f32⟩
  | .hbm, ⟨40, _⟩ => ⟨S16777216, .f32⟩
  | .hbm, ⟨41, _⟩ => ⟨S16777216, .f32⟩
  | .hbm, ⟨42, _⟩ => ⟨S_, .f32⟩
  | .hbm, ⟨43, _⟩ => ⟨S16777216, .f32⟩
  | .hbm, ⟨44, _⟩ => ⟨S16777216, .f32⟩
  | .hbm, ⟨45, _⟩ => ⟨S16777216, .f32⟩
  | .hbm, ⟨46, _⟩ => ⟨S_, .f32⟩
  | .hbm, ⟨47, _⟩ => ⟨S16777216, .f32⟩
  | .hbm, ⟨48, _⟩ => ⟨S16777216, .f32⟩
  | .hbm, ⟨49, _⟩ => ⟨S_, .f32⟩
  | .hbm, ⟨50, _⟩ => ⟨S_, .f32⟩
  | .hbm, ⟨51, _⟩ => ⟨S16777216, .f32⟩
  | .hbm, ⟨52, _⟩ => ⟨S16777216, .f32⟩
  | .hbm, ⟨53, _⟩ => ⟨S_, .f32⟩
  | .hbm, ⟨54, _⟩ => ⟨S16777216, .f32⟩
  | .hbm, ⟨55, _⟩ => ⟨S16777216, .f32⟩
  | .hbm, ⟨56, _⟩ => ⟨S_, .f32⟩
  | .hbm, ⟨57, _⟩ => ⟨S16777216, .f32⟩
  | .hbm, ⟨58, _⟩ => ⟨S16777216, .f32⟩
  | .hbm, ⟨59, _⟩ => ⟨S_, .f32⟩
  | .hbm, ⟨60, _⟩ => ⟨S16777216, .f32⟩
  | .hbm, ⟨61, _⟩ => ⟨S16777216, .f32⟩
  | .hbm, ⟨62, _⟩ => ⟨S16777216, .f32⟩
  | .hbm, ⟨63, _⟩ => ⟨S_, .f32⟩
  | .hbm, ⟨64, _⟩ => ⟨S16777216, .f32⟩
  | .hbm, ⟨65, _⟩ => ⟨S16777216, .f32⟩
  | .hbm, ⟨66, _⟩ => ⟨S_, .f32⟩
  | .hbm, ⟨67, _⟩ => ⟨S16777216, .f32⟩
  | .hbm, ⟨68, _⟩ => ⟨S16777216, .f32⟩
  | .hbm, ⟨69, _⟩ => ⟨S_, .f32⟩
  | .hbm, ⟨70, _⟩ => ⟨S16777216, .f32⟩
  | .hbm, ⟨71, _⟩ => ⟨S16777216, .f32⟩
  | .hbm, ⟨72, _⟩ => ⟨S16777216, .f32⟩
  | .hbm, ⟨73, _⟩ => ⟨S_, .f32⟩
  | .hbm, ⟨74, _⟩ => ⟨S16777216, .f32⟩
  | .hbm, ⟨75, _⟩ => ⟨S16777216, .f32⟩
  | .hbm, ⟨76, _⟩ => ⟨S_, .f32⟩
  | .hbm, ⟨77, _⟩ => ⟨S16777216, .f32⟩
  | .hbm, ⟨78, _⟩ => ⟨S16777216, .f32⟩
  | .hbm, ⟨79, _⟩ => ⟨S16777216, .f32⟩
  | .hbm, ⟨80, _⟩ => ⟨S16777216, .f32⟩
  | .hbm, ⟨81, _⟩ => ⟨S16777216, .f32⟩
  | .hbm, ⟨82, _⟩ => ⟨S16777216, .f32⟩
  | .hbm, ⟨83, _⟩ => ⟨S16777216, .f32⟩
  | .hbm, ⟨84, _⟩ => ⟨S_, .f32⟩
  | .hbm, ⟨85, _⟩ => ⟨S16777216, .f32⟩
  | .hbm, ⟨86, _⟩ => ⟨S16777216, .i1⟩
  | .hbm, ⟨87, _⟩ => ⟨S_, .f32⟩
  | .hbm, ⟨88, _⟩ => ⟨S_, .f32⟩
  | .hbm, ⟨89, _⟩ => ⟨S16777216, .f32⟩
  | .hbm, ⟨90, _⟩ => ⟨S16777216, .f32⟩
  | .hbm, ⟨91, _⟩ => ⟨S_, .f32⟩
  | .hbm, ⟨92, _⟩ => ⟨S262144, .f32⟩
  | .hbm, ⟨93, _⟩ => ⟨S16777216x1, .i32⟩
  | .hbm, ⟨94, _⟩ => ⟨S262144, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_call0_v0 : Ref sig .tc := ⟨.hbm, 50, rfl⟩
abbrev main_call0_v1 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_cst_11 : Ref sig .tc := ⟨.hbm, 56, rfl⟩
abbrev main_v37 : Ref sig .tc := ⟨.hbm, 57, rfl⟩
abbrev main_v38 : Ref sig .tc := ⟨.hbm, 58, rfl⟩
abbrev main_cst_12 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_13 : Ref sig .tc := ⟨.hbm, 63, rfl⟩
abbrev main_v42 : Ref sig .tc := ⟨.hbm, 64, rfl⟩
abbrev main_v43 : Ref sig .tc := ⟨.hbm, 65, rfl⟩
abbrev main_cst_14 : Ref sig .tc := ⟨.hbm, 66, rfl⟩
abbrev main_v44 : Ref sig .tc := ⟨.hbm, 67, rfl⟩
abbrev main_v45 : Ref sig .tc := ⟨.hbm, 68, rfl⟩
abbrev main_cst_15 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_16 : Ref sig .tc := ⟨.hbm, 73, rfl⟩
abbrev main_v49 : Ref sig .tc := ⟨.hbm, 74, rfl⟩
abbrev main_v50 : Ref sig .tc := ⟨.hbm, 75, rfl⟩
abbrev main_cst_17 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_18 : Ref sig .tc := ⟨.hbm, 84, rfl⟩
abbrev main_v58 : Ref sig .tc := ⟨.hbm, 85, rfl⟩
abbrev main_v59 : Ref sig .tc := ⟨.hbm, 86, rfl⟩
abbrev main_cst_19 : Ref sig .tc := ⟨.hbm, 87, rfl⟩
abbrev main_call1_v0 : Ref sig .tc := ⟨.hbm, 88, rfl⟩
abbrev main_call1_v1 : Ref sig .tc := ⟨.hbm, 89, rfl⟩
abbrev main_v60 : Ref sig .tc := ⟨.hbm, 90, rfl⟩
abbrev main_cst_20 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S_S262144 : S_.BroadcastsInDim S262144 (![] : Fin 0 → Fin S262144.rank)
  gather_S262144_S16777216x1_S16777216_n_0_n_n_0_1_1_wf : GatherDims.WF S262144 S16777216x1 S16777216 [] [0] [] [0] [] 1 ![1]
  scatter_S262144_S16777216x1_S16777216_n_0_0_1_wf : ScatterDims.WF S262144 S16777216x1 S16777216 [] [0] [0] 1

variable [Facts₀]

def gather_S262144_S16777216x1_S16777216_n_0_n_n_0_1_1 : GatherDims S262144 S16777216x1 S16777216 where
  offsetDims := []
  collapsedSliceDims := [0]
  operandBatchingDims := []
  startIndicesBatchingDims := []
  startIndexMap := [0]
  indexVectorDim := 1
  sliceSizes := ![1]
  wf := gather_S262144_S16777216x1_S16777216_n_0_n_n_0_1_1_wf
def scatter_S262144_S16777216x1_S16777216_n_0_0_1 : ScatterDims S262144 S16777216x1 S16777216 where
  updateWindowDims := []
  insertedWindowDims := [0]
  scatterDimsToOperandDims := [0]
  indexVectorDim := 1
  wf := scatter_S262144_S16777216x1_S16777216_n_0_0_1_wf

class Facts : Prop extends Facts₀ where

variable [Facts]
-- ==== Proof.PairEnergy.lean ====
/-
  The switched, shielded Coulomb energy of one atom pair, as a function of the pair's distance `d` and the two
  partial charges `qi`, `qj`:

      E(d, qi, qj) = K · qi · qj · ( s(d) · C(√(d² + 1)) + (1 − s(d)) · C(d) )   if d ≤ 10,   0 otherwise,

  where `C(r) = 1/r + r/100 − 1/5` is the damped Coulomb term, `s(d) = 1 − x³ (x (6x − 15) + 10)` for
  `x = d/2 < 1` and `0` otherwise is the smooth short-range switch, and `K` is half the Coulomb constant.
  Every literal is kept as the binary32 word both programs print; the function is stated at any float
  instance, one scalar operation per arithmetic step, in the order both programs apply them.
  `energyOn` applies it at every index of three equally shaped arrays; re-laying the arrays out commutes with it.
-/
import Idealize.ShloMosaic.PureOps.Vector
import Idealize.ShloMosaic.PureOps.ShapeOps

noncomputable section

namespace Cert.Coulomb

open Idealize.ShloMosaic

variable {F : FTy → Type} [FloatOps F]

/-- A binary32 literal at the instance. -/
abbrev lit (w : BitVec 32) : F .f32 := FloatOps.ofBits (F := F) .f32 w

/-- The shielded distance `√(d² + 1)`. -/
def shielded (d : F .f32) : F .f32 :=
  FloatOps.sqrt (FloatOps.addf (FloatOps.mulf d d) (lit 0x3F800000#32))

/-- The distance in units of half the short-range cutoff: `d / 2`. -/
def scaled (d : F .f32) : F .f32 := FloatOps.divf d (lit 0x40000000#32)

/-- The smooth switch: `1 − x³ (x (6x − 15) + 10)` where `x = d/2 < 1`, zero elsewhere. -/
def switch (d : F .f32) : F .f32 :=
  Scalar.select (FloatOps.cmpf .olt (scaled d) (lit 0x3F800000#32))
    (FloatOps.subf (lit 0x3F800000#32)
      (FloatOps.mulf (FloatOps.mulf (FloatOps.mulf (scaled d) (scaled d)) (scaled d))
        (FloatOps.addf
          (FloatOps.mulf (scaled d) (FloatOps.subf (FloatOps.mulf (lit 0x40C00000#32) (scaled d)) (lit 0x41700000#32)))
          (lit 0x41200000#32))))
    (lit 0x00000000#32)

/-- The damped Coulomb term `1/r + r/100 − 1/5` (the last literal the binary32 nearest to one fifth). -/
def damped (r : F .f32) : F .f32 :=
  FloatOps.subf (FloatOps.addf (FloatOps.divf (lit 0x3F800000#32) r) (FloatOps.divf r (lit 0x42C80000#32)))
    (lit 0x3E4CCCCD#32)

/-- The pair's energy: the charges' product scaled by half the Coulomb constant, times the switched mix of the
    shielded and the plain damped terms; zero beyond the long-range cutoff `10`. -/
def pairEnergy (d qi qj : F .f32) : F .f32 :=
  Scalar.select (FloatOps.cmpf .ole d (lit 0x41200000#32))
    (FloatOps.mulf (FloatOps.mulf (FloatOps.mulf (lit 0x40E664F3#32) qi) qj)
      (FloatOps.addf (FloatOps.mulf (switch d) (damped (shielded d)))
        (FloatOps.mulf (FloatOps.subf (lit 0x3F800000#32) (switch d)) (damped d))))
    (lit 0x00000000#32)

/-- The pair energy at every index of three equally shaped arrays. -/
def energyOn {s : Shape} (D Qi Qj : FVec F s .f32) : FVec F s .f32 :=
  fun i => pairEnergy (D i) (Qi i) (Qj i)

theorem energyOn_apply {s : Shape} (D Qi Qj : FVec F s .f32) (i : s.Idx) :
    energyOn D Qi Qj i = pairEnergy (D i) (Qi i) (Qj i) := rfl

/-- Re-laying out the energies is taking the energies of the re-laid-out arrays. -/
theorem shapeCast_energyOn {s t : Shape} (D Qi Qj : FVec F s .f32) (h : s.ShapeCasts t) :
    shapeCast t (energyOn D Qi Qj) h = energyOn (shapeCast t D h) (shapeCast t Qi h) (shapeCast t Qj h) := rfl

end Cert.Coulomb

end
-- ==== Proof.KernelBlock.lean ====
/-
  What the pallas_call leaves in its result array, at any float instance: the array of pair energies.

  The region's three operands are the host's re-layouts, as 131072 rows of 128 lanes, of the distances and of the two
  gathered charge arrays. At grid point `t` each window holds rows `2048 t … 2048 t + 2047` of its array; the body's
  one store writes, at every position of the block, the pair energy of the three loaded values at that position.
  So what point `t` writes back is block `t` of ONE whole-array function — the pair energy applied position by
  position to the three operand arrays —, the 64 blocks tile the 131072 rows, and the result array ends holding that
  function.
-/
import proofs.«154201_j59992103190615_1_alg».proof.Proof.Gen.KernelIdeal.Frame
import proofs.«154201_j59992103190615_1_alg».proof.Proof.PairEnergy
import Idealize.ShloMosaic.Lib.Pipeline.Value
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Energy

open Cert.KernelIdeal Cert.KernelIdeal.Gen Cert.Coulomb

variable {F : FTy → Type} [FloatOps F]
variable (m : (ℓ : Loc nD τ sig) → Buf (Elt F) ℓ) (ρ : Dev nD → PrngReg)

/-! ## The body's store -/

/-- The value the body stores is the pair energy of its three loaded blocks, position by position: the printed
    operations are the energy's steps in order, and the re-layouts of a block to its own shape change nothing. -/
theorem stored_eq (x0 x1 x2 : Vec F S2048x128 .f32) :
    k0_pay1 (k0_pay2 x0) (k0_pay3 x1) (k0_pay4 x2) (k0_pay5 x0) (k0_pay6 x0) (k0_pay7 x0) (k0_pay8 x0) (k0_pay9 x0)
      (Scalar.ofBits .f32 0x42C80000#32) = energyOn (s := S2048x128) x0 x1 x2 := by
  simp only [k0_pay1, k0_pay2, k0_pay3, k0_pay4, k0_pay5, k0_pay6, k0_pay7, k0_pay8, k0_pay9, shapeCast_self]
  rfl

/-! ## The operand arrays as the region finds them -/

/-- An index array with its negative entries wrapped by the table's length 262144, as a column of gather indices. -/
abbrev wrapped (ix : IVec S16777216 32) : IVec S16777216x1 32 :=
  broadcastInDim S16777216x1 ![0] bcast_S16777216_S16777216x1_0
    (select (cmpi .slt ix (broadcastInDim S16777216 ![] bcast_S_S16777216 (constantI S_ 32 0#32)))
      (addi ix (broadcastInDim S16777216 ![] bcast_S_S16777216 (constantI S_ 32 262144#32))) ix)

/-- The distances, one per pair. -/
abbrev dist (c : Dev nD) : FVec F S16777216 .f32 := m ((c : Thread nD τ).loc main_arg0)
/-- The charge of each pair's first atom: the charge table gathered at the wrapped first index array. -/
abbrev chargeI (c : Dev nD) : FVec F S16777216 .f32 :=
  Host.gather gather_S262144_S16777216x1_S16777216_n_0_n_n_0_1_1 (m ((c : Thread nD τ).loc main_arg1))
    (wrapped (m ((c : Thread nD τ).loc main_arg2)))
/-- The charge of each pair's second atom. -/
abbrev chargeJ (c : Dev nD) : FVec F S16777216 .f32 :=
  Host.gather gather_S262144_S16777216x1_S16777216_n_0_n_n_0_1_1 (m ((c : Thread nD τ).loc main_arg1))
    (wrapped (m ((c : Thread nD τ).loc main_arg3)))

/-- Window 0's array is the distances as rows of 128. -/
theorem V_dist (c : Dev nD) :
    V m c main_v14 = shapeCast S131072x128 (dist m c) shapeCasts_S16777216_S131072x128 := by
  show StableHlo.after hostOps0 (fun b => m (c, b)) (Proc.devRef .tc main_v14) = _
  after_results
  rfl

/-- Window 1's array is the first atoms' charges as rows of 128. -/
theorem V_chargeI (c : Dev nD) :
    V m c main_v15 = shapeCast S131072x128 (chargeI m c) shapeCasts_S16777216_S131072x128 := by
  show StableHlo.after hostOps0 (fun b => m (c, b)) (Proc.devRef .tc main_v15) = _
  after_results
  rfl

/-- Window 2's array is the second atoms' charges as rows of 128. -/
theorem V_chargeJ (c : Dev nD) :
    V m c main_v16 = shapeCast S131072x128 (chargeJ m c) shapeCasts_S16777216_S131072x128 := by
  show StableHlo.after hostOps0 (fun b => m (c, b)) (Proc.devRef .tc main_v16) = _
  after_results
  rfl

/-! ## From blocks to the array -/

theorem hz : (![0, 0] : Fin 2 → Nat) = fun _ => 0 := funext fun a => by fin_cases a <;> rfl

/-- The pair energies of the three operand arrays as the region finds them, position by position. -/
abbrev energies (c : Dev nD) : S131072x128.Idx → Elt F .f32 :=
  energyOn (s := S131072x128) (V m c main_v14) (V m c main_v15) (V m c main_v16)

/-- The four index maps agree at every grid point (each is "row block `t`, lane block 0"), decided over the 64 points. -/
theorem same_blocks : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = win0_3.index t (1 : Fin 2) :=
  (by decide +kernel : ∀ t : Fin grid0.N, _)

/-- Every one of the 64 row blocks is some point's. -/
theorem block_onto : ∀ (q0 : Fin 64) (q1 : Fin 1), ∃ t : Fin cfg0.N, win0_3.index t = ![q0.val, q1.val] :=
  (by decide +kernel : ∀ (q0 : Fin 64) (q1 : Fin 1), ∃ t : Fin grid0.N, win0_3.index t = ![q0.val, q1.val])

/-- What point `t` writes back is block `t` of the energies. -/
theorem flushed_eq (c : Dev nD) (t : Fin cfg0.N) :
    (dats m 0 c).flushed 3 t = ((cfg0.win 3).blk t).view.read (Elt F) (energies m c) := by
  show (cfg0.win 3).cut (grid0.coords t) ((dats m 0 c).after 3 t) = _
  rw [after0_3]
  unfold out0_3
  rw [View.canon_unit_zero hz]
  simp only [View.ld_unit_zero (S := S2048x128) hz]
  rw [stored_eq]
  obtain ⟨e0, e1, e2, e3, e4, e5⟩ := same_blocks t
  funext j
  show pairEnergy (V m c main_v14 (((cfg0.win 0).blk t).view.emb j)) (V m c main_v15 (((cfg0.win 1).blk t).view.emb j))
      (V m c main_v16 (((cfg0.win 2).blk t).view.emb j))
    = pairEnergy (V m c main_v14 (((cfg0.win 3).blk t).view.emb j)) (V m c main_v15 (((cfg0.win 3).blk t).view.emb j))
      (V m c main_v16 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb j = ((cfg0.win 3).blk t).view.emb j := by
    funext a; apply Fin.ext
    match a with
    | ⟨0, _⟩ => show win0_1.index t (0 : Fin 2) * 2048 + 1 * (j 0).val = win0_3.index t (0 : Fin 2) * 2048 + 1 * (j 0).val; omega
    | ⟨1, _⟩ => show win0_1.index t (1 : Fin 2) * 128 + 1 * (j 1).val = win0_3.index t (1 : Fin 2) * 128 + 1 * (j 1).val; omega
  have h2 : ((cfg0.win 2).blk t).view.emb j = ((cfg0.win 3).blk t).view.emb j := by
    funext a; apply Fin.ext
    match a with
    | ⟨0, _⟩ => show win0_2.index t (0 : Fin 2) * 2048 + 1 * (j 0).val = win0_3.index t (0 : Fin 2) * 2048 + 1 * (j 0).val; omega
    | ⟨1, _⟩ => show win0_2.index t (1 : Fin 2) * 128 + 1 * (j 1).val = win0_3.index t (1 : Fin 2) * 128 + 1 * (j 1).val; omega
  rw [h0, h1, h2]

/-- A position of the result array is in point `t`'s block iff each coordinate is in the block's range on its axis. -/
theorem mem_blk (t : Fin cfg0.N) (i : S131072x128.Idx) :
    i ∈ ((cfg0.win 3).blk t).view.set ↔ ∀ a : Fin 2, win0_3.index t a * S2048x128.size a ≤ (i a).val
      ∧ (i a).val < win0_3.index t a * S2048x128.size a + S2048x128.size a := by
  show i ∈ ((View.whole main_v17).slice (win0_3.rect t)).set ↔ _
  rw [View.set_slice_whole, Rect.mem_set_unit]
  exact Iff.rfl

/-- Row `r` lies in the block of the point whose row block is `r / 2048`: the blocks cover the array. -/
theorem covered (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  obtain ⟨t, ht⟩ := block_onto ⟨(i 0).val / 2048, by omega⟩ ⟨(i 1).val / 128, by omega⟩
  have q0 : win0_3.index t (0 : Fin 2) = (i 0).val / 2048 := congrFun ht 0
  have q1 : win0_3.index t (1 : Fin 2) = (i 1).val / 128 := congrFun ht 1
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 128 ≤ (i 1).val ∧ (i 1).val < win0_3.index t (1 : Fin 2) * 128 + 128; omega

/-- The result array after the region: the pair energies of the operand arrays, position by position. -/
theorem final (c : Dev nD) : (dats m 0 c).arrAt 3 cfg0.N = energies m c :=
  (dats m 0 c).arrAt_eq_of_cover 3 (energies m c) (fun t _ => flushed_eq m c t) covered

/-- The same read flat: re-laid out as one axis of 16777216 pairs, the result array holds each pair's energy of its
    distance and its two gathered charges (the operands' re-layout to rows and this one back cancel). -/
theorem final_flat (c : Dev nD) :
    shapeCast S16777216 ((dats m 0 c).arrAt 3 cfg0.N) shapeCasts_S131072x128_S16777216
      = energyOn (s := S16777216) (dist m c) (chargeI m c) (chargeJ m c) := by
  rw [final]
  show shapeCast S16777216 (energyOn (s := S131072x128) (V m c main_v14) (V m c main_v15) (V m c main_v16))
      shapeCasts_S131072x128_S16777216 = _
  rw [V_dist, V_chargeI, V_chargeJ, shapeCast_energyOn, shapeCast_shapeCast, shapeCast_shapeCast, shapeCast_shapeCast]

end Cert.KernelIdeal.Energy

end
-- ==== Proof.KernelValue.lean ====
/-
  The kernel program's result, at any float instance: each atom's energy.

  After the region the host re-lays the result array out as one axis of 16777216 pair energies and adds each pair's
  energy into the entry of a zero array of 262144 atoms that the pair's first index names (a scatter-add). The
  region left the pair energies of the distances and the gathered charges (the block module), and the first index
  array is still as launched, so the result is the scatter-add of those energies at the first indices.
-/
import proofs.«154201_j59992103190615_1_alg».proof.Proof.KernelBlock

noncomputable section

open Idealize.ShloMosaic Idealize.ShloMosaic.TcCoe Idealize.SL.Sem Idealize.ShloMosaic.StableHlo
open Idealize.ShloMosaic.Pipeline (Dat)

namespace Cert.KernelIdeal.Energy

open Cert.KernelIdeal Cert.KernelIdeal.Gen Cert.Coulomb

variable {F : FTy → Type} [FloatOps F]
variable (m : (ℓ : Loc nD τ sig) → Buf (Elt F) ℓ) (ρ : Dev nD → PrngReg)

/-- Each atom's energy: the pair energies added into a zero array at the pairs' first indices. -/
abbrev atomEnergy (c : Dev nD) : FVec F S262144 .f32 :=
  Host.scatterAdd scatter_S262144_S16777216x1_S16777216_n_0_0_1
    (broadcastInDim S262144 ![] bcast_S_S262144 (constant S_ .f32 0x00000000#32))
    (broadcastInDim S16777216x1 ![0] bcast_S16777216_S16777216x1_0 (m ((c : Thread nD τ).loc main_arg2)))
    (energyOn (s := S16777216) (dist m c) (chargeI m c) (chargeJ m c))

/-- The host lines after the region compute `atomEnergy`: they read the region's result array, which holds the pair
    energies, and the first index array, which no line has written. -/
theorem tail_eq (c : Dev nD) :
    Pipeline.afterTail₀ cfgs (dats m) 0 (V0 m) [hostOps1] c main_v21 = atomEnergy m c := by
  unfold Pipeline.afterTail₀
  show StableHlo.after hostOps1 _ (Proc.devRef .tc main_v21) = _
  after_results
  have e17 : Pipeline.withArrays (cfgs 0).spec c (V0 m c) (fun w => (dats m 0 c).arrAt w (cfgs 0).N) (Proc.devRef .tc main_v17)
      = (dats m 0 c).arrAt 3 cfg0.N := Pipeline.withArrays_arr spec0 launch0.win.arr_inj c _ _ 3
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  rw [e17, e2]
  show Host.scatterAdd scatter_S262144_S16777216x1_S16777216_n_0_0_1 _ _
      (shapeCast S16777216 ((dats m 0 c).arrAt 3 cfg0.N) shapeCasts_S131072x128_S16777216) = _
  rw [final_flat]

/-- The run, read: every weakly fair execution ends with the result buffer at each atom's energy and the four
    arguments as launched. -/
theorem run : θ_run defs (onTc (τ := τ) (main (F := F))) ⟨m, fun _ => 0, ρ⟩ fun r => ∀ c : Dev nD,
      r.2.mem ((c.tc : Thread nD τ).loc main_v21) = atomEnergy m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v21 (Pipeline.mem_restRefs_of main_v21 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.Energy

end
-- ==== Proof.RefValue.lean ====
/-
  The reference program's result at the exact instance: each atom's energy, the same function as the kernel's.

  The reference gathers the two charge arrays, computes every pair's energy over the flat axis of 16777216 pairs with
  host operations — its quotient and its square root are, on the extended reals, the kernel's —, and scatter-adds the
  energies at the pairs' first indices. Its run's composed term, read at a pair index, is the pair energy of that pair's
  distance and two gathered charges, step for step.
-/
import proofs.«154201_j59992103190615_1_alg».proof.Proof.Gen.ReferenceIdeal.Run
import proofs.«154201_j59992103190615_1_alg».proof.Proof.PairEnergy
import Idealize.ShloMosaic.PureOps.Ideal

noncomputable section

open Idealize.ShloMosaic Idealize.ShloMosaic.TcCoe Idealize.SL.Sem

namespace Cert.ReferenceIdeal.Energy

open Cert.ReferenceIdeal Cert.ReferenceIdeal.Gen Cert.ReferenceIdeal.Value Cert.Coulomb

variable (m : (ℓ : Loc nD τ sig) → Buf (Elt Ideal) ℓ)

/-- An index array with its negative entries wrapped by the table's length 262144, as a column of gather indices. -/
abbrev wrapped (ix : IVec S16777216 32) : IVec S16777216x1 32 :=
  broadcastInDim S16777216x1 ![0] bcast_S16777216_S16777216x1_0
    (select (cmpi .slt ix (broadcastInDim S16777216 ![] bcast_S_S16777216 (constantI S_ 32 0#32)))
      (addi ix (broadcastInDim S16777216 ![] bcast_S_S16777216 (constantI S_ 32 262144#32))) ix)

/-- The distances, one per pair. -/
abbrev dist (c : Dev nD) : FVec Ideal S16777216 .f32 := m ((c : Thread nD τ).loc main_arg0)
/-- The charge of each pair's first atom. -/
abbrev chargeI (c : Dev nD) : FVec Ideal S16777216 .f32 :=
  Host.gather gather_S262144_S16777216x1_S16777216_n_0_n_n_0_1_1 (m ((c : Thread nD τ).loc main_arg1))
    (wrapped (m ((c : Thread nD τ).loc main_arg2)))
/-- The charge of each pair's second atom. -/
abbrev chargeJ (c : Dev nD) : FVec Ideal S16777216 .f32 :=
  Host.gather gather_S262144_S16777216x1_S16777216_n_0_n_n_0_1_1 (m ((c : Thread nD τ).loc main_arg1))
    (wrapped (m ((c : Thread nD τ).loc main_arg3)))

/-- Each atom's energy: the pair energies added into a zero array at the pairs' first indices. -/
abbrev atomEnergy (c : Dev nD) : FVec Ideal S262144 .f32 :=
  Host.scatterAdd scatter_S262144_S16777216x1_S16777216_n_0_0_1
    (broadcastInDim S262144 ![] bcast_S_S262144 (constant S_ .f32 0x00000000#32))
    (broadcastInDim S16777216x1 ![0] bcast_S16777216_S16777216x1_0 (m ((c : Thread nD τ).loc main_arg2)))
    (energyOn (s := S16777216) (dist m c) (chargeI m c) (chargeJ m c))

/-- The run's composed term is `atomEnergy`: the scattered updates, read at a pair index, are the pair energy's
    steps on that pair's distance and charges (a splat constant read at an index is the constant; the host quotient
    and square root are the exact ones). -/
theorem result_eq (c : Dev nD) : res_main_v63 m c = atomEnergy m c := by
  unfold res_main_v63
  refine congrArg (Host.scatterAdd scatter_S262144_S16777216x1_S16777216_n_0_0_1 _ _) ?_
  funext j
  rfl

end Cert.ReferenceIdeal.Energy

end
-- ==== Proof.lean ====
/-
  The certificate of the pairwise electrostatic energy kernel against its jnp reference.

  Both programs compute, for 16777216 atom pairs over a table of 262144 partial charges, each atom's energy: every
  pair's switched, shielded Coulomb energy `E(d, qi, qj)` (Proof/PairEnergy.lean) of its distance and of the charges
  gathered at its two (wrapped) indices, added into the entry its first index names.
  The kernel program gathers the charges on the host, re-lays the three arrays out as 131072 rows of 128 lanes, computes
  the energies in one pallas_call over 64 row blocks, re-lays the result out flat and scatter-adds it on the host; the
  reference does the gathers, the energies over the flat axis and the scatter-add all on the host.

  * The frames of the two kernel programs are the generated ones; the reference's is its generated run with the result
    dropped. The ideal pass rewrote nothing, so `preserves` is trivial.
  * `algebraic`: the kernel's result array is the pair energies position by position (Proof/KernelBlock.lean: each grid
    point writes its block of one whole-array function, and the blocks tile the array), so the kernel program's result
    is the scatter-add of the flat pair energies (Proof/KernelValue.lean); the reference's composed term is the same
    scatter-add of the same energies (Proof/RefValue.lean) — at the exact instance the host's quotient and square root
    are the kernel's, and every step and every literal of the energy is the same on both sides, so no algebraic law
    and no finiteness of the inputs is needed. With the arguments agreeing, the two results are one term.
-/
import proofs.«154201_j59992103190615_1_alg».proof.Defs
import proofs.«154201_j59992103190615_1_alg».proof.Proof.Gen.Kernel
import proofs.«154201_j59992103190615_1_alg».proof.Proof.Gen.Kernel.Skeleton
import proofs.«154201_j59992103190615_1_alg».proof.Proof.Gen.Kernel.Launch
import proofs.«154201_j59992103190615_1_alg».proof.Proof.Gen.Kernel.Points
import proofs.«154201_j59992103190615_1_alg».proof.Proof.Gen.Kernel.Frame
import proofs.«154201_j59992103190615_1_alg».proof.Proof.Gen.KernelIdeal
import proofs.«154201_j59992103190615_1_alg».proof.Proof.Gen.KernelIdeal.Skeleton
import proofs.«154201_j59992103190615_1_alg».proof.Proof.Gen.KernelIdeal.Launch
import proofs.«154201_j59992103190615_1_alg».proof.Proof.Gen.KernelIdeal.Points
import proofs.«154201_j59992103190615_1_alg».proof.Proof.Gen.KernelIdeal.Frame
import proofs.«154201_j59992103190615_1_alg».proof.Proof.Gen.ReferenceIdeal
import proofs.«154201_j59992103190615_1_alg».proof.Proof.Gen.Pre_finite_inputs
import proofs.«154201_j59992103190615_1_alg».proof.Proof.Gen.ReferenceIdeal.Run
import proofs.«154201_j59992103190615_1_alg».proof.Proof.KernelValue
import proofs.«154201_j59992103190615_1_alg».proof.Proof.RefValue
import Idealize.ShloMosaic.Adequacy
import Idealize.ShloMosaic.Init

noncomputable section

namespace Cert.Proof

open Idealize.ShloMosaic Idealize.SL.Sem

/-- The two programs' results are one function of the arguments: with the four argument arrays agreeing, the
    reference's scatter-add of pair energies is the kernel program's, term for term (the two programs' shape and
    dimension records are the same data). -/
theorem same_energy
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Energy.atomEnergy m' c = Cert.KernelIdeal.Energy.atomEnergy (F := Ideal) m c := by
  unfold Cert.ReferenceIdeal.Energy.atomEnergy Cert.ReferenceIdeal.Energy.dist Cert.ReferenceIdeal.Energy.chargeI
    Cert.ReferenceIdeal.Energy.chargeJ
  rw [a0, a1, a2, a3]
  rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with each atom's energy in the result buffer, the same array when the arguments agree. -/
theorem algebraic : Cert.algebraic_KernelIdeal_ReferenceIdeal := by
  intro m ρ m' ρ' _ hagree
  refine ⟨fun c => Cert.KernelIdeal.Energy.atomEnergy (F := Ideal) m c, Cert.KernelIdeal.Energy.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Energy.result_eq]
  exact same_energy m m' c (hagree c).1 (hagree c).2.1 (hagree c).2.2.1 (hagree c).2.2.2

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
